-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4x512 : Shape := ⟨3, ![32768, 4, 512]⟩
abbrev S512x512 : Shape := ⟨2, ![512, 512]⟩
abbrev S_ : Shape := ⟨0, ![]⟩

class Facts : Prop where
  bcast_S_S32768x4x512 : S_.BroadcastsInDim S32768x4x512 (![] : Fin 0 → Fin S32768x4x512.rank)
  reducesTo_S32768x4x512_S_d0_1_2 : S32768x4x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32768x4x512 .f32) (main_arg1 : FVec F S512x512 .f32) : IVec S_ 1 :=
  let main_v0 : FVec F S32768x4x512 .f32 := Host.absf main_arg0
  let main_cst : FVec F S_ .f32 := constant S_ .f32 0x7F800000#32
  let main_v1 : FVec F S32768x4x512 .f32 := broadcastInDim S32768x4x512 ![] bcast_S_S32768x4x512 main_cst
  let main_v2 : IVec S32768x4x512 1 := cmpf .olt main_v0 main_v1
  let main_c : IVec S_ 1 := constantI S_ 1 1#1
  let main_v3 : IVec S_ 1 := (fun x v => Host.reduce IntOp.andi x v reducesTo_S32768x4x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32768x4x512 : Shape := ⟨3, ![32768, 4, 512]⟩
abbrev S512x512 : Shape := ⟨2, ![512, 512]⟩
abbrev S131072x512 : Shape := ⟨2, ![131072, 512]⟩
abbrev S131072x1025 : Shape := ⟨2, ![131072, 1025]⟩
abbrev S2048x512 : Shape := ⟨2, ![2048, 512]⟩
abbrev S2048x1025 : Shape := ⟨2, ![2048, 1025]⟩
abbrev S2048 : Shape := ⟨1, ![2048]⟩
abbrev S2048x1 : Shape := ⟨2, ![2048, 1]⟩
abbrev S32768x4x1025 : Shape := ⟨3, ![32768, 4, 1025]⟩

abbrev nBuf : Space → Nat
  | .hbm => 6
  | .vmem => 5
  | .smem => 0
  | _ => 0

abbrev bufTy : (tb : Table) → Fin (tcTables nBuf tb) → BufTy
  | .hbm, ⟨0, _⟩ => ⟨S32768x4x512, .f32⟩
  | .hbm, ⟨1, _⟩ => ⟨S512x512, .f32⟩
  | .hbm, ⟨2, _⟩ => ⟨S131072x512, .f32⟩
  | .hbm, ⟨3, _⟩ => ⟨S512x512, .bf16⟩
  | .hbm, ⟨4, _⟩ => ⟨S131072x1025, .f32⟩
  | .hbm, ⟨5, _⟩ => ⟨S32768x4x1025, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x1025, .f32⟩
  | .local _ .vmem, ⟨4, _⟩ => ⟨S2048x1025, .f32⟩
  | _, _ => ⟨S32768x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1025 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x4x512_S131072x512 : S32768x4x512.ShapeCasts S131072x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  shapeCasts_S2048_S2048x1 : S2048.ShapeCasts S2048x1
  inb_S2048x1025_S2048x1_0_0 : ∀ a, (![0, 0] : Fin 2 → Nat) a + S2048x1.size a ≤ S2048x1025.size a
  h_S2048x1 : 0 < S2048x1.numel
  inb_S2048x1025_S2048x512_0_1 : ∀ a, (![0, 1] : Fin 2 → Nat) a + S2048x512.size a ≤ S2048x1025.size a
  inb_S2048x1025_S2048x512_0_513 : ∀ a, (![0, 513] : Fin 2 → Nat) a + S2048x512.size a ≤ S2048x1025.size a
  shapeCasts_S131072x1025_S32768x4x1025 : S131072x1025.ShapeCasts S32768x4x1025
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1025.size a ≤ S131072x1025.size a
  hwx0_2 : ∀ i : grid0.Coords, EltTy.bits .f32 = 32 ∨ (Rect.block (s := S131072x1025) S2048x1025.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1025.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4x512 : Shape := ⟨3, ![32768, 4, 512]⟩
abbrev S512x512 : Shape := ⟨2, ![512, 512]⟩
abbrev S_ : Shape := ⟨0, ![]⟩
abbrev S512x1 : Shape := ⟨2, ![512, 1]⟩
abbrev S512x1025 : Shape := ⟨2, ![512, 1025]⟩
abbrev S32768x4x1025 : Shape := ⟨3, ![32768, 4, 1025]⟩

abbrev nBuf : Space → Nat
  | .hbm => 13
  | .vmem => 0
  | .smem => 0
  | _ => 0

abbrev bufTy : (tb : Table) → Fin (tcTables nBuf tb) → BufTy
  | .hbm, ⟨0, _⟩ => ⟨S32768x4x512, .f32⟩
  | .hbm, ⟨1, _⟩ => ⟨S512x512, .f32⟩
  | .hbm, ⟨2, _⟩ => ⟨S_, .f32⟩
  | .hbm, ⟨3, _⟩ => ⟨S512x1, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S512x1025, .f32⟩
  | .hbm, ⟨12, _⟩ => ⟨S32768x4x1025, .f32⟩
  | _, _ => ⟨S32768x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S512x1 : S_.BroadcastsInDim S512x1 (![] : Fin 0 → Fin S512x1.rank)
  bcast_S_S512x512 : S_.BroadcastsInDim S512x512 (![] : Fin 0 → Fin S512x512.rank)
  concatenates_S512x1_S512x512_S512x512_S512x1025_d1 : Shape.Concatenates [S512x1, S512x512, S512x512] S512x1025 1
  dot_S32768x4x512_S512x1025_S32768x4x1025_2_0_01_1_n_n_wf : DotDims.WF S32768x4x512 S512x1025 S32768x4x1025 [2] [0] [0, 1] [1] [] []

variable [Facts₀]

def dot_S32768x4x512_S512x1025_S32768x4x1025_2_0_01_1_n_n : DotDims S32768x4x512 S512x1025 S32768x4x1025 where
  lhsContracting := [2]
  rhsContracting := [0]
  lhsNonContracting := [0, 1]
  rhsNonContracting := [1]
  lhsBatch := []
  rhsBatch := []
  wf := dot_S32768x4x512_S512x1025_S32768x4x1025_2_0_01_1_n_n_wf

class Facts : Prop extends Facts₀ where

variable [Facts]
-- ==== Proof.Features.lean ====
/-
  One row of the result, as a function of one row of x and of the weight matrix.

  For a row xr of 512 entries and a 512 × 512 matrix W the result row has 1025 entries:
    entry 0           is the sum of the row,                    Σ p, xr p;
    entry 1 + j       is the row itself,                        xr j            (j < 512);
    entry 513 + j     is the row times column j of W,           Σ p, xr p · W p j   (j < 512).
  The product of the row with the matrix [ ones | identity | W ] has the same entries: a sum of products with ones
  is the sum, and a sum of products with column j of the identity is the j-th entry. Both identities hold for all
  extended reals, because x · 1 = x and x · 0 = 0 there with no exception at the infinities.
-/
import Idealize.ShloMosaic.PureOps.Ideal
import Idealize.ShloMosaic.Lib.ValueIdx
import Idealize.ShloMosaic.Lib.StableHlo.Predicate

noncomputable section

open scoped BigOperators

namespace Cert.Features

open Idealize.ShloMosaic

/-- Entry q of the result row built from the row xr and the matrix W. -/
def featRow (xr : Fin 512 → EReal) (W : Fin 512 → Fin 512 → EReal) (q : Fin 1025) : EReal :=
  if _h0 : q.val = 0 then ∑ p : Fin 512, xr p
  else if h1 : q.val ≤ 512 then xr ⟨q.val - 1, by omega⟩
  else ∑ p : Fin 512, xr p * W p ⟨q.val - 513, by have := q.isLt; omega⟩

theorem featRow_zero (xr : Fin 512 → EReal) (W : Fin 512 → Fin 512 → EReal) (q : Fin 1025) (h : q.val = 0) :
    featRow xr W q = ∑ p : Fin 512, xr p := by
  unfold featRow; rw [dif_pos h]

theorem featRow_copy (xr : Fin 512 → EReal) (W : Fin 512 → Fin 512 → EReal) (q : Fin 1025) (j : Fin 512)
    (h : q.val = 1 + j.val) : featRow xr W q = xr j := by
  unfold featRow
  rw [dif_neg (by omega), dif_pos (by have := j.isLt; omega)]
  exact congrArg xr (Fin.ext (by show q.val - 1 = j.val; omega))

theorem featRow_prod (xr : Fin 512 → EReal) (W : Fin 512 → Fin 512 → EReal) (q : Fin 1025) (j : Fin 512)
    (h : q.val = 513 + j.val) : featRow xr W q = ∑ p : Fin 512, xr p * W p j := by
  unfold featRow
  rw [dif_neg (by omega), dif_neg (by omega)]
  refine Finset.sum_congr rfl fun p _ => ?_
  exact congrArg (fun t => xr p * W p t) (Fin.ext (by show q.val - 513 = j.val; omega))

/-- Every entry position is of exactly one of the three kinds. -/
theorem col_cases (q : Fin 1025) :
    q.val = 0 ∨ (∃ j : Fin 512, q.val = 1 + j.val) ∨ (∃ j : Fin 512, q.val = 513 + j.val) := by
  have hq := q.isLt
  by_cases h0 : q.val = 0
  · exact Or.inl h0
  · by_cases h1 : q.val ≤ 512
    · exact Or.inr (Or.inl ⟨⟨q.val - 1, by omega⟩, by show q.val = 1 + (q.val - 1); omega⟩)
    · exact Or.inr (Or.inr ⟨⟨q.val - 513, by omega⟩, by show q.val = 513 + (q.val - 513); omega⟩)

/-- A sum of products with ones is the sum. -/
theorem sum_mul_one (xr : Fin 512 → EReal) : ∑ p : Fin 512, xr p * 1 = ∑ p : Fin 512, xr p :=
  Finset.sum_congr rfl fun p _ => mul_one (xr p)

/-- A sum of products with column j of the identity matrix is the j-th entry. -/
theorem sum_mul_delta (xr : Fin 512 → EReal) (j : Fin 512) :
    ∑ p : Fin 512, xr p * (if p = j then (1 : EReal) else 0) = xr j := by
  rw [Finset.sum_eq_single j]
  · rw [if_pos rfl, mul_one]
  · intro p _ hp; rw [if_neg hp, mul_zero]
  · intro h; exact absurd (Finset.mem_univ j) h

/-- The identity matrix as the reference builds it: the word comparison of (row index + 0) with the column index,
    converted to a float, is one on the diagonal and zero off it. -/
theorem eye_entry (p j : Fin 512) :
    FloatOps.uitofp (F := Ideal) .f32 (IntOp.cmpi .eq (IntOp.addi (BitVec.ofNat 32 p.val) 0#32) (BitVec.ofNat 32 j.val))
      = if p = j then (1 : EReal) else 0 := by
  have hp := p.isLt
  have hj := j.isLt
  have hadd : IntOp.addi (BitVec.ofNat 32 p.val) 0#32 = BitVec.ofNat 32 p.val := by
    simp [IntOp.addi]
  rw [hadd]
  by_cases h : p = j
  · subst h
    rw [if_pos rfl, (StableHlo.Predicate.cmpi_eq_iff).mpr rfl]
    show (((1#1 : BitVec 1).toNat : ℝ) : EReal) = 1
    norm_num
  · rw [if_neg h]
    have hne : IntOp.cmpi .eq (BitVec.ofNat 32 p.val) (BitVec.ofNat 32 j.val) ≠ 1#1 := by
      intro hc
      have := (StableHlo.Predicate.cmpi_eq_iff).mp hc
      have hv := congrArg BitVec.toNat this
      simp only [BitVec.toNat_ofNat] at hv
      rw [Nat.mod_eq_of_lt (by omega), Nat.mod_eq_of_lt (by omega)] at hv
      exact h (Fin.ext hv)
    have hz : IntOp.cmpi .eq (BitVec.ofNat 32 p.val) (BitVec.ofNat 32 j.val) = 0#1 := by
      generalize IntOp.cmpi .eq (BitVec.ofNat 32 p.val) (BitVec.ofNat 32 j.val) = b at hne ⊢
      revert hne; revert b; decide
    rw [hz]
    show (((0#1 : BitVec 1).toNat : ℝ) : EReal) = 0
    norm_num

end Cert.Features

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Payloads.lean ====
/-
  The three values one grid point stores, read at an entry, on the extended reals.

  The body loads a 2048 × 512 block xb of x and the 512 × 512 weight block wb and stores three things: the block itself
  (a cast to its own shape, the identity), the lane sum of each row as a 2048 × 1 column, and the matrix product
  xb · wb into a zero accumulator (the narrowing of both factors to sixteen bits is the identity on extended reals).
  At row r: the column holds Σ p, xb r p, and entry j of the product holds Σ k, xb r k · wb k j.
-/
import proofs.«112011_j48284022342007_1_alg».proof.Proof.Gen.KernelIdeal.Skeleton
import proofs.«112011_j48284022342007_1_alg».proof.Proof.LibDense
import Idealize.ShloMosaic.Lib.Pipeline.Value
import Idealize.ShloMosaic.Lib.ValueIdx
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-- The stored copy of the block is the block. -/
theorem copy_eq (xb : Vec Ideal S2048x512 .f32) : k0_pay1 (F := Ideal) xb = xb := by
  unfold k0_pay1
  exact shapeCast_self _ _

/-- Row r of the stored column is the sum of row r of the block. -/
theorem rowsum_apply (xb : Vec Ideal S2048x512 .f32) (r : Fin 2048) :
    k0_pay3 (F := Ideal) xb (ix2 r (0 : Fin 1)) = ∑ p : Fin 512, xb (ix2 r p) := by
  unfold k0_pay3
  rw [copy_eq]
  refine (shapeCast_apply _ _ (ix2 r (0 : Fin 1)) (ix1 r) ?_).trans ?_
  · rw [Shape.rowMajor_val_one, Shape.rowMajor_val_two]
    show r.val = r.val * 1 + 0
    omega
  · refine (Ideal.multiReduction_add_single xb 0x00000000#32 reduces_S2048x512_S2048 (.inl rfl) rfl (ix1 r)).trans ?_
    show ∑ p : Fin 512, _ = _
    refine Finset.sum_congr rfl fun p _ => congrArg xb ?_
    funext a
    match a with
    | ⟨0, _⟩ => rfl
    | ⟨1, _⟩ => rfl

/-- Entry (r, j) of the stored product is the sum over k of block (r, k) times weight (k, j). -/
theorem prod_apply (xb : Vec Ideal S2048x512 .f32) (wb : Vec Ideal S512x512 .bf16) (r : Fin 2048) (j : Fin 512) :
    k0_pay2 (F := Ideal) xb wb (ix2 r j) = ∑ k : Fin 512, (xb (ix2 r k) : EReal) * (wb (ix2 k j) : EReal) := by
  unfold k0_pay2
  refine (Cert.LibDense.matmul_zero_apply dot_S2048x512_S512x512_S2048x512_1_0_0_1_n_n none rfl rfl rfl rfl rfl rfl _ _ r j).trans ?_
  rw [copy_eq, shapeCast_self]
  rfl

end Cert.KernelIdeal.Payloads

end
-- ==== Proof.BlockValue.lean ====
/-
  What one grid point leaves in its 2048 × 1025 output block.

  The body makes three stores that tile the block by columns: the row sums into column 0, the loaded block into
  columns 1 to 512, the matrix product into columns 513 to 1024. So row r of the block is the result row
  (Features.featRow) built from row r of the loaded block and the weight block: every store's value agrees with
  that one function on the rectangle it is stored to, and the rectangles cover the block.
-/
import proofs.«112011_j48284022342007_1_alg».proof.Proof.Gen.KernelIdeal.Frame
import proofs.«112011_j48284022342007_1_alg».proof.Proof.Features
import proofs.«112011_j48284022342007_1_alg».proof.Proof.Payloads
import Idealize.ShloMosaic.Lib.Pipeline.Value
import Idealize.ShloMosaic.Lib.ValueIdx
import Idealize.ShloMosaic.Lib.Tactic

set_option maxRecDepth 16384

noncomputable section

open scoped BigOperators

namespace Cert.KernelIdeal.BlockValue

open Idealize.ShloMosaic Idealize.ShloMosaic.TcCoe Idealize.ShloMosaic.Tactic Idealize.ShloMosaic.ValueIdx
open Cert.KernelIdeal Cert.KernelIdeal.Gen Cert.KernelIdeal.Payloads

theorem hz : (![0, 0] : Fin 2 → Nat) = fun _ => 0 := funext fun a => by fin_cases a <;> rfl

/-- The block as one function: row r is the result row of row r of xb and of the weights wb. -/
def blockFeat (xb : Vec Ideal S2048x512 .f32) (wb : Vec Ideal S512x512 .bf16) : Vec Ideal S2048x1025 .f32 :=
  fun y => Cert.Features.featRow (fun p => xb (ix2 (⟨(y 0).val, idx2_lt0 y⟩ : Fin 2048) p)) (fun p j => wb (ix2 p j))
    (⟨(y 1).val, idx2_lt1 y⟩ : Fin 1025)

theorem blockFeat_apply (xb : Vec Ideal S2048x512 .f32) (wb : Vec Ideal S512x512 .bf16) (r : Fin 2048) (q : Fin 1025) :
    blockFeat xb wb (ix2 r q) = Cert.Features.featRow (fun p => xb (ix2 r p)) (fun p j => wb (ix2 p j)) q := rfl

/-- The column of row sums agrees with the block function on column 0. -/
theorem piece_rowsum (xb : Vec Ideal S2048x512 .f32) (wb : Vec Ideal S512x512 .bf16)
    (inb : ∀ a, (![0, 0] : Fin 2 → Nat) a + S2048x1.size a ≤ S2048x1025.size a) (r : Fin 2048) (z : Fin 1) :
    k0_pay3 (F := Ideal) xb (ix2 r z)
      = blockFeat xb wb ((Rect.unit (s := S2048x1025) ![0, 0] S2048x1.size inb).emb (ix2 r z)) := by
  obtain rfl : z = 0 := Subsingleton.elim _ _
  have he : (Rect.unit (s := S2048x1025) ![0, 0] S2048x1.size inb).emb (ix2 r (0 : Fin 1)) = ix2 r (⟨0, by omega⟩ : Fin 1025) := by
    funext a
    match a with
    | ⟨0, _⟩ => exact Fin.ext (by show 0 + 1 * r.val = r.val; omega)
    | ⟨1, _⟩ => exact Fin.ext (by show 0 + 1 * 0 = 0; omega)
  rw [he, blockFeat_apply, Cert.Features.featRow_zero _ _ _ rfl]
  exact rowsum_apply xb r

/-- The stored copy agrees with the block function on columns 1 to 512. -/
theorem piece_copy (xb : Vec Ideal S2048x512 .f32) (wb : Vec Ideal S512x512 .bf16)
    (inb : ∀ a, (![0, 1] : Fin 2 → Nat) a + S2048x512.size a ≤ S2048x1025.size a) (r : Fin 2048) (j : Fin 512) :
    k0_pay1 (F := Ideal) xb (ix2 r j)
      = blockFeat xb wb ((Rect.unit (s := S2048x1025) ![0, 1] S2048x512.size inb).emb (ix2 r j)) := by
  have he : (Rect.unit (s := S2048x1025) ![0, 1] S2048x512.size inb).emb (ix2 r j) = ix2 r (⟨1 + j.val, by omega⟩ : Fin 1025) := by
    funext a
    match a with
    | ⟨0, _⟩ => exact Fin.ext (by show 0 + 1 * r.val = r.val; omega)
    | ⟨1, _⟩ => exact Fin.ext (by show 1 + 1 * j.val = 1 + j.val; omega)
  rw [he, blockFeat_apply, Cert.Features.featRow_copy _ _ _ j rfl, copy_eq]

/-- The stored product agrees with the block function on columns 513 to 1024. -/
theorem piece_prod (xb : Vec Ideal S2048x512 .f32) (wb : Vec Ideal S512x512 .bf16)
    (inb : ∀ a, (![0, 513] : Fin 2 → Nat) a + S2048x512.size a ≤ S2048x1025.size a) (r : Fin 2048) (j : Fin 512) :
    k0_pay2 (F := Ideal) xb wb (ix2 r j)
      = blockFeat xb wb ((Rect.unit (s := S2048x1025) ![0, 513] S2048x512.size inb).emb (ix2 r j)) := by
  have he : (Rect.unit (s := S2048x1025) ![0, 513] S2048x512.size inb).emb (ix2 r j) = ix2 r (⟨513 + j.val, by omega⟩ : Fin 1025) := by
    funext a
    match a with
    | ⟨0, _⟩ => exact Fin.ext (by show 0 + 1 * r.val = r.val; omega)
    | ⟨1, _⟩ => exact Fin.ext (by show 513 + 1 * j.val = 513 + j.val; omega)
  rw [he, blockFeat_apply, Cert.Features.featRow_prod _ _ _ j rfl]
  exact prod_apply xb wb r j

/-- What the body leaves in the output block, whatever staging buffers it ran on: the block function of the two
    loaded blocks. -/
theorem block_eq (c : Dev nD) (i : grid0.Coords) (a1 : Memref sig .tc .vmem S2048x512 .f32) (h1 : a1.IsWhole)
    (a2 : Memref sig .tc .vmem S512x512 .bf16) (h2 : a2.IsWhole) (a3 : Memref sig .tc .vmem S2048x1025 .f32) (h3 : a3.IsWhole)
    (xb : Vec Ideal S2048x512 .f32) (wb : Vec Ideal S512x512 .bf16) :
    out0_A_2 (F := Ideal) c i a1 h1 a2 h2 a3 h3 xb wb = blockFeat xb wb := by
  unfold out0_A_2
  rw [View.read_writes_eq_canon _ _ _ (cover0_A_2 c i a1 h1 a2 h2 a3 h3 xb wb)]
  funext y
  refine View.canon_apply_of_pieces (blockFeat xb wb) _ ?_ y (cover0_A_2 c i a1 h1 a2 h2 a3 h3 xb wb y)
  unfold kernelRun0_A
  dsimp only
  sl_unfold_words
  simp only [View.readAt_eq_ld, h1.read_unread, h2.read_unread, View.ld_unit_zero (S := S2048x512) hz,
    View.ld_unit_zero (S := S512x512) hz]
  intro p hp
  simp only [List.mem_cons, List.mem_nil_iff, or_false] at hp
  rcases hp with rfl | rfl | rfl
  · intro x
    obtain ⟨r, j, rfl⟩ : ∃ (r : Fin 2048) (j : Fin 512), x = ix2 r j := ⟨x 0, x 1, eq_ix2 x⟩
    exact piece_prod xb wb Cert.KernelIdeal.Gen.inb_S2048x1025_S2048x512_0_513 r j
  · intro x
    obtain ⟨r, j, rfl⟩ : ∃ (r : Fin 2048) (j : Fin 512), x = ix2 r j := ⟨x 0, x 1, eq_ix2 x⟩
    exact piece_copy xb wb Cert.KernelIdeal.Gen.inb_S2048x1025_S2048x512_0_1 r j
  · intro x
    obtain ⟨r, z, rfl⟩ : ∃ (r : Fin 2048) (z : Fin 1), x = ix2 r z := ⟨x 0, x 1, eq_ix2 x⟩
    exact piece_rowsum xb wb Cert.KernelIdeal.Gen.inb_S2048x1025_S2048x1_0_0 r z

end Cert.KernelIdeal.BlockValue

end
-- ==== Proof.ArrayValue.lean ====
/-
  From blocks to the whole result of the kernel's program.

  Grid point t reads rows 2048 t to 2048 t + 2047 of the flattened x (131072 × 512) and the whole weight matrix, and
  writes rows 2048 t to 2048 t + 2047 of the 131072 × 1025 output. Each block is the result-row function of its rows,
  so the 64 blocks, which tile the output by rows, make the output the result-row function of the flattened x: row r
  of the output is Features.featRow of row r of the flattened x and of the weights. Before the launch the program
  flattens x to two axes and narrows the weights (the identity on extended reals); after it, it splits the row axis
  back into (32768, 4).
-/
import proofs.«112011_j48284022342007_1_alg».proof.Proof.Gen.KernelIdeal.Frame
import proofs.«112011_j48284022342007_1_alg».proof.Proof.BlockValue
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.ArrayValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.BlockValue

variable (m : (ℓ : Loc nD τ sig) → Buf (Elt Ideal) ℓ) (ρ : Dev nD → PrngReg)

/-- The output array as one function: row r is the result row of row r of X and of the weights W. -/
def arrFeat (X : Vec Ideal S131072x512 .f32) (W : Vec Ideal S512x512 .bf16) : Vec Ideal S131072x1025 .f32 :=
  fun y => Cert.Features.featRow (fun p => X (ix2 (⟨(y 0).val, idx2_lt0 y⟩ : Fin 131072) p)) (fun p j => W (ix2 p j))
    (⟨(y 1).val, idx2_lt1 y⟩ : Fin 1025)

theorem arrFeat_apply (X : Vec Ideal S131072x512 .f32) (W : Vec Ideal S512x512 .bf16) (r : Fin 131072) (q : Fin 1025) :
    arrFeat X W (ix2 r q) = Cert.Features.featRow (fun p => X (ix2 r p)) (fun p j => W (ix2 p j)) q := rfl

/-- Where each window's block sits at point t: x and the output move down the rows with t, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := by
  have h := t.isLt
  have hN : cfg0.N = 64 := N_0
  omega

/-- Row r of the block of x at point t is row 2048 t + r of the flattened x. -/
theorem xblock_apply (c : Dev nD) (t : Fin cfg0.N) (r : Fin 2048) (p : Fin 512) (hb : t.val * 2048 + r.val < 131072) :
    (iblk m c 0 t : Vec Ideal S2048x512 .f32) (ix2 r p)
      = (V m c main_v0 : Vec Ideal S131072x512 .f32) (ix2 (⟨t.val * 2048 + r.val, hb⟩ : Fin 131072) p) := by
  obtain ⟨e00, e01, -⟩ := idx_facts t
  show V m c main_v0 (((cfg0.win 0).blk t).view.emb (ix2 r p)) = V m c main_v0 _
  refine congrArg (V m c main_v0) ?_
  funext a
  apply Fin.ext
  match a with
  | ⟨0, _⟩ => show win0_0.index t (0 : Fin 2) * 2048 + 1 * r.val = t.val * 2048 + r.val; rw [e00]; omega
  | ⟨1, _⟩ => show win0_0.index t (1 : Fin 2) * 512 + 1 * p.val = p.val; rw [e01]; omega

/-- The weight block at every point is the whole narrowed weight matrix. -/
theorem wblock_apply (c : Dev nD) (t : Fin cfg0.N) (p j : Fin 512) :
    (iblk m c 1 t : Vec Ideal S512x512 .bf16) (ix2 p j) = (V m c main_v1 : Vec Ideal S512x512 .bf16) (ix2 p j) := by
  obtain ⟨-, -, e10, e11, -⟩ := idx_facts t
  show V m c main_v1 (((cfg0.win 1).blk t).view.emb (ix2 p j)) = V m c main_v1 _
  refine congrArg (V m c main_v1) ?_
  funext a
  apply Fin.ext
  match a with
  | ⟨0, _⟩ => show win0_1.index t (0 : Fin 2) * 512 + 1 * p.val = p.val; rw [e10]; omega
  | ⟨1, _⟩ => show win0_1.index t (1 : Fin 2) * 512 + 1 * j.val = j.val; rw [e11]; omega

/-- A block whose rows are rows n · 2048 + r of X, with the weights W, is the block of the array function at rows
    n · 2048 + r: stated over plain variables, instantiated at a grid point below. -/
theorem block_of_rows (X : Vec Ideal S131072x512 .f32) (W : Vec Ideal S512x512 .bf16)
    (xb : Vec Ideal S2048x512 .f32) (wb : Vec Ideal S512x512 .bf16) (n : ℕ) (hn : n < 64)
    (hx : ∀ (r : Fin 2048) (p : Fin 512), xb (ix2 r p) = X (ix2 (⟨n * 2048 + r.val, by omega⟩ : Fin 131072) p))
    (hw : ∀ p j : Fin 512, wb (ix2 p j) = W (ix2 p j))
    (y : S2048x1025.Idx) (i : S131072x1025.Idx) (h0 : (i 0).val = n * 2048 + (y 0).val) (h1 : (i 1).val = (y 1).val) :
    blockFeat xb wb y = arrFeat X W i := by
  unfold blockFeat arrFeat
  have hrow : (fun p => xb (ix2 (⟨(y 0).val, idx2_lt0 y⟩ : Fin 2048) p))
      = fun p => X (ix2 (⟨(i 0).val, idx2_lt0 i⟩ : Fin 131072) p) := by
    funext p
    rw [hx]
    exact congrArg (fun r => X (ix2 r p)) (Fin.ext h0.symm)
  have hwt : (fun p j => wb (ix2 p j)) = fun p j => W (ix2 p j) := by
    funext p j; exact hw p j
  have hq : (⟨(y 1).val, idx2_lt1 y⟩ : Fin 1025) = ⟨(i 1).val, idx2_lt1 i⟩ := Fin.ext h1.symm
  rw [hrow, hwt, hq]

/-- What point t writes back is block t of the array function of the flattened x and the narrowed weights. -/
theorem flushed_eq (c : Dev nD) (t : Fin cfg0.N) :
    (dats m 0 c).flushed 2 t = ((cfg0.win 2).blk t).view.read (Elt Ideal) (arrFeat (V m c main_v0) (V m c main_v1)) := by
  show (cfg0.win 2).cut (grid0.coords t) ((dats m 0 c).after 2 t) = _
  rw [after0_2]
  unfold outsAt0
  rw [block_eq]
  obtain ⟨-, -, -, -, e20, e21⟩ := idx_facts t
  have ht := point_lt t
  funext y
  show blockFeat (iblk m c 0 t) (iblk m c 1 t) y = arrFeat (V m c main_v0) (V m c main_v1) (((cfg0.win 2).blk t).view.emb y)
  refine block_of_rows (V m c main_v0) (V m c main_v1) (iblk m c 0 t) (iblk m c 1 t) t.val ht
    (fun r p => xblock_apply m c t r p (by omega)) (fun p j => wblock_apply m c t p j) y _ ?_ ?_
  · show win0_2.index t (0 : Fin 2) * 2048 + 1 * (y 0).val = t.val * 2048 + (y 0).val
    rw [e20]; omega
  · show win0_2.index t (1 : Fin 2) * 1025 + 1 * (y 1).val = (y 1).val
    rw [e21]; omega

/-- An index of the output is in point t's block iff each coordinate is in the block's range. -/
theorem mem_blk (t : Fin cfg0.N) (i : S131072x1025.Idx) :
    i ∈ ((cfg0.win 2).blk t).view.set ↔ ∀ a : Fin 2, win0_2.index t a * S2048x1025.size a ≤ (i a).val
      ∧ (i a).val < win0_2.index t a * S2048x1025.size a + S2048x1025.size a := by
  show i ∈ ((View.whole main_v2).slice (win0_2.rect t)).set ↔ _
  rw [View.set_slice_whole, Rect.mem_set_unit]
  exact Iff.rfl

/-- The output after the run is the array function: row r lies in the block of point r / 2048. -/
theorem final (c : Dev nD) : (dats m 0 c).arrAt 2 cfg0.N = arrFeat (V m c main_v0) (V m c main_v1) :=
  (dats m 0 c).arrAt_eq_of_cover 2 (arrFeat (V m c main_v0) (V m c main_v1)) (fun t _ => flushed_eq m c t) fun i => by
    have hi0 : (i 0).val < 131072 := idx2_lt0 i
    have hi1 : (i 1).val < 1025 := idx2_lt1 i
    have hN : cfg0.N = 64 := N_0
    let t : Fin cfg0.N := ⟨(i 0).val / 2048, by rw [hN]; omega⟩
    obtain ⟨-, -, -, -, e20, e21⟩ := idx_facts t
    refine ⟨t, flush0_2 t, ?_⟩
    rw [mem_blk]
    intro a
    match a with
    | ⟨0, _⟩ =>
      show win0_2.index t (0 : Fin 2) * 2048 ≤ (i 0).val ∧ (i 0).val < win0_2.index t (0 : Fin 2) * 2048 + 2048
      rw [e20]; show (i 0).val / 2048 * 2048 ≤ (i 0).val ∧ (i 0).val < (i 0).val / 2048 * 2048 + 2048; omega
    | ⟨1, _⟩ =>
      show win0_2.index t (1 : Fin 2) * 1025 ≤ (i 1).val ∧ (i 1).val < win0_2.index t (1 : Fin 2) * 1025 + 1025
      rw [e21]; omega

/-- Before the launch: x flattened to two axes, -/
theorem V_main_v0 (c : Dev nD) : (V m c main_v0 : Vec Ideal S131072x512 .f32)
    = shapeCast S131072x512 (m ((c : Thread nD τ).loc main_arg0)) Cert.KernelIdeal.Gen.shapeCasts_S32768x4x512_S131072x512 := by
  show StableHlo.after hostOps0 (fun b => m (c, b)) (Proc.devRef .tc main_v0) = _
  after_results <;> rfl

/-- and the weights narrowed. -/
theorem V_main_v1 (c : Dev nD) : (V m c main_v1 : Vec Ideal S512x512 .bf16)
    = (truncf (F := Ideal) .bf16 (m ((c : Thread nD τ).loc main_arg1) : FVec Ideal S512x512 .f32)
        Cert.KernelIdeal.Gen.bitsLt_bf16_f32 : FVec Ideal S512x512 .bf16) := by
  show StableHlo.after hostOps0 (fun b => m (c, b)) (Proc.devRef .tc main_v1) = _
  after_results <;> rfl

/-- The program's result as a function of its two arguments. -/
def result (x : Vec Ideal S32768x4x512 .f32) (w : Vec Ideal S512x512 .f32) : Vec Ideal S32768x4x1025 .f32 :=
  shapeCast S32768x4x1025
    (arrFeat (shapeCast S131072x512 x Cert.KernelIdeal.Gen.shapeCasts_S32768x4x512_S131072x512)
      (truncf (F := Ideal) .bf16 (w : FVec Ideal S512x512 .f32) Cert.KernelIdeal.Gen.bitsLt_bf16_f32 : FVec Ideal S512x512 .bf16))
    Cert.KernelIdeal.Gen.shapeCasts_S131072x1025_S32768x4x1025

/-- After the launch: the output's row axis split back into (32768, 4). -/
theorem tail_v3 (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = arrFeat (V m c main_v0) (V m c main_v1) :=
    (Pipeline.withArrays_arr spec0 launch0.win.arr_inj c _ _ 2).trans (final m c)
  show shapeCast S32768x4x1025
      (Pipeline.withArrays (cfgs 0).spec c (V0 m c) (fun w => (dats m 0 c).arrAt w (cfgs 0).N) (Proc.devRef .tc main_v2))
      Cert.KernelIdeal.Gen.shapeCasts_S131072x1025_S32768x4x1025 = _
  rw [hw, V_main_v0, V_main_v1]
  rfl

/-- The run of the kernel's program, read: the result at the result function of the two arguments, the arguments
    unchanged. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference's result, entry by entry, is the result-row function.

  The reference multiplies x (32768 × 4 × 512, contracted over its last axis) by the 512 × 1025 matrix
  [ ones | identity | w ] joined along the columns. Column 0 of that matrix is all ones, column 1 + j is column j of
  the identity (one in row j, zero elsewhere), column 513 + j is column j of w. So entry (b, f, q) of the product,
  Σ k, x b f k · M k q, is the sum of the row for q = 0, the entry x b f j for q = 1 + j, and Σ k, x b f k · w k j
  for q = 513 + j: the result row (Features.featRow) of the row x b f · and of w.
-/
import proofs.«112011_j48284022342007_1_alg».proof.Proof.Gen.ReferenceIdeal.Read
import proofs.«112011_j48284022342007_1_alg».proof.Proof.Features
import Idealize.ShloMosaic.Lib.Pipeline.Value
import Idealize.ShloMosaic.Lib.ValueIdx
import Idealize.ShloMosaic.Lib.IdealHost

noncomputable section

open scoped BigOperators

namespace Cert.ReferenceIdeal.RefValue

open Idealize.ShloMosaic Idealize.ShloMosaic.ValueIdx
open Cert.ReferenceIdeal Cert.ReferenceIdeal.Gen Cert.ReferenceIdeal.Read

/-- Column 0 of the joined matrix is all ones. -/
theorem poly_ones (w : Vec Ideal S512x512 .f32) (k : Fin 512) (q : Fin 1025) (hq : q.val = 0) :
    val_main_v7 (F := Ideal) w (ix2 k q) = (1 : EReal) := by
  unfold val_main_v7
  refine (concatenate_apply_piece (t := S512x1025) (1 : Fin 2) [⟨S512x1, val_main_v0 (F := Ideal)⟩, ⟨S512x512, val_main_v6 (F := Ideal)⟩, ⟨S512x512, w⟩]
    concatenates_S512x1_S512x512_S512x512_S512x1025_d1 (ix2 k q) 0 (by simp) S512x1 (val_main_v0 (F := Ideal)) rfl rfl 0 rfl
    (ix2 k (0 : Fin 1)) (fun b hb => ?_) ?_).trans ?_
  · match b with
    | ⟨0, _⟩ => rfl
    | ⟨1, _⟩ => exact absurd rfl hb
  · show 0 + 0 = q.val; omega
  · rw [val_main_v0_apply, val_main_cst_apply]
    exact Ideal.ofBits_one_f32

/-- Column 1 + j of the joined matrix is column j of the identity. -/
theorem poly_eye (w : Vec Ideal S512x512 .f32) (k j : Fin 512) (q : Fin 1025) (hq : q.val = 1 + j.val) :
    val_main_v7 (F := Ideal) w (ix2 k q) = if k = j then (1 : EReal) else 0 := by
  unfold val_main_v7
  refine (concatenate_apply_piece (t := S512x1025) (1 : Fin 2) [⟨S512x1, val_main_v0 (F := Ideal)⟩, ⟨S512x512, val_main_v6 (F := Ideal)⟩, ⟨S512x512, w⟩]
    concatenates_S512x1_S512x512_S512x512_S512x1025_d1 (ix2 k q) 1 (by simp) S512x512 (val_main_v6 (F := Ideal)) rfl rfl 1 rfl
    (ix2 k j) (fun b hb => ?_) ?_).trans ?_
  · match b with
    | ⟨0, _⟩ => rfl
    | ⟨1, _⟩ => exact absurd rfl hb
  · show 1 + j.val = q.val; omega
  · rw [val_main_v6_apply, val_main_v5_apply, val_main_v4_apply, val_main_v1_apply, val_main_v2_apply, val_main_v3_apply,
      val_main_c_apply]
    exact Cert.Features.eye_entry k j

/-- Column 513 + j of the joined matrix is column j of w. -/
theorem poly_w (w : Vec Ideal S512x512 .f32) (k j : Fin 512) (q : Fin 1025) (hq : q.val = 513 + j.val) :
    val_main_v7 (F := Ideal) w (ix2 k q) = w (ix2 k j) := by
  unfold val_main_v7
  exact concatenate_apply_piece (t := S512x1025) (1 : Fin 2) [⟨S512x1, val_main_v0 (F := Ideal)⟩, ⟨S512x512, val_main_v6 (F := Ideal)⟩, ⟨S512x512, w⟩]
    concatenates_S512x1_S512x512_S512x512_S512x1025_d1 (ix2 k q) 2 (by simp) S512x512 w rfl rfl 513 rfl
    (ix2 k j) (fun b hb => by
      match b with
      | ⟨0, _⟩ => rfl
      | ⟨1, _⟩ => exact absurd rfl hb) (by show 513 + j.val = q.val; omega)

/-- The left factor of term k is x b f k, -/
theorem lidx_eq (b : Fin 32768) (f : Fin 4) (q : Fin 1025) (k : Fin 512) : lidx_main_v8 (ix3 b f q) k = ix3 b f k := by
  funext a
  match a with
  | ⟨0, _⟩ => rfl
  | ⟨1, _⟩ => rfl
  | ⟨2, _⟩ => rfl

/-- and the right factor is entry (k, q) of the joined matrix. -/
theorem ridx_eq (b : Fin 32768) (f : Fin 4) (q : Fin 1025) (k : Fin 512) : ridx_main_v8 (ix3 b f q) k = ix2 k q := by
  funext a
  match a with
  | ⟨0, _⟩ => rfl
  | ⟨1, _⟩ => rfl

/-- Entry (b, f, q) of the reference's result is the result row of x b f · and w at q. -/
theorem ref_apply (x : Vec Ideal S32768x4x512 .f32) (w : Vec Ideal S512x512 .f32) (b : Fin 32768) (f : Fin 4) (q : Fin 1025) :
    val_main_v8 (F := Ideal) x w (ix3 b f q)
      = Cert.Features.featRow (fun p => x (ix3 b f p)) (fun p j => w (ix2 p j)) q := by
  rw [val_main_v8_apply]
  rcases Cert.Features.col_cases q with h0 | ⟨j, hj⟩ | ⟨j, hj⟩
  · rw [Cert.Features.featRow_zero _ _ _ h0]
    refine (Finset.sum_congr rfl fun k _ => ?_).trans (Cert.Features.sum_mul_one (fun p => x (ix3 b f p)))
    rw [lidx_eq, ridx_eq, poly_ones w k q h0]
  · rw [Cert.Features.featRow_copy _ _ _ j hj]
    refine (Finset.sum_congr rfl fun k _ => ?_).trans (Cert.Features.sum_mul_delta (fun p => x (ix3 b f p)) j)
    rw [lidx_eq, ridx_eq, poly_eye w k j q hj]
  · rw [Cert.Features.featRow_prod _ _ _ j hj]
    refine Finset.sum_congr rfl fun k _ => ?_
    rw [lidx_eq, ridx_eq, poly_w w k j q hj]

end Cert.ReferenceIdeal.RefValue

end
-- ==== Proof.ResultEntry.lean ====
/-
  The two results are one function.

  The kernel's program flattens x from (32768, 4, 512) to (131072, 512), builds the 131072 × 1025 output and splits its
  row axis back to (32768, 4). Flat row 4 b + f is row (b, f), both reshapes keep row-major positions, and narrowing
  the weights is the identity on extended reals; so entry (b, f, q) of the kernel's result is the result row
  (Features.featRow) of the row x b f · and of w, at q. The reference's entry (b, f, q) is the same term.
-/
import proofs.«112011_j48284022342007_1_alg».proof.Proof.ArrayValue
import proofs.«112011_j48284022342007_1_alg».proof.Proof.RefValue

noncomputable section

open scoped BigOperators

namespace Cert.ResultEntry

open Idealize.ShloMosaic Idealize.ShloMosaic.ValueIdx

/-- Entry (b, f, q) of the kernel program's result. -/
theorem result_apply (x : Vec Ideal Cert.KernelIdeal.S32768x4x512 .f32) (w : Vec Ideal Cert.KernelIdeal.S512x512 .f32)
    (b : Fin 32768) (f : Fin 4) (q : Fin 1025) :
    Cert.KernelIdeal.ArrayValue.result x w (ix3 b f q)
      = Cert.Features.featRow (fun p => x (ix3 b f p)) (fun p j => w (ix2 p j)) q := by
  have hb := b.isLt
  have hf := f.isLt
  unfold Cert.KernelIdeal.ArrayValue.result
  refine (shapeCast_apply _ _ (ix3 b f q) (ix2 (⟨b.val * 4 + f.val, by omega⟩ : Fin 131072) q) ?_).trans ?_
  · rw [Shape.rowMajor_val_two, Shape.rowMajor_val_three]
    show (b.val * 4 + f.val) * 1025 + q.val = (b.val * 4 + f.val) * 1025 + q.val
    rfl
  · rw [Cert.KernelIdeal.ArrayValue.arrFeat_apply]
    have hrow : (fun p : Fin 512 => shapeCast Cert.KernelIdeal.S131072x512 x Cert.KernelIdeal.Gen.shapeCasts_S32768x4x512_S131072x512
          (ix2 (⟨b.val * 4 + f.val, by omega⟩ : Fin 131072) p)) = fun p => x (ix3 b f p) := by
      funext p
      refine shapeCast_apply _ _ (ix2 (⟨b.val * 4 + f.val, by omega⟩ : Fin 131072) p) (ix3 b f p) ?_
      rw [Shape.rowMajor_val_three, Shape.rowMajor_val_two]
      show (b.val * 4 + f.val) * 512 + p.val = (b.val * 4 + f.val) * 512 + p.val
      rfl
    exact congrArg (fun g => Cert.Features.featRow g (fun p j => w (ix2 p j)) q) hrow

/-- The reference's result and the kernel program's result are the same array, for all extended-real arguments. -/
theorem result_eq (x : Vec Ideal Cert.KernelIdeal.S32768x4x512 .f32) (w : Vec Ideal Cert.KernelIdeal.S512x512 .f32) :
    Cert.ReferenceIdeal.Read.val_main_v8 (F := Ideal) x w = Cert.KernelIdeal.ArrayValue.result x w := by
  funext i
  obtain ⟨b, f, q, rfl⟩ : ∃ (b : Fin 32768) (f : Fin 4) (q : Fin 1025), i = ix3 b f q := ⟨i 0, i 1, i 2, eq_ix3 i⟩
  rw [Cert.ReferenceIdeal.RefValue.ref_apply, result_apply]

end Cert.ResultEntry

end
-- ==== Proof.lean ====
/-
  The kernel computes x · [ ones | identity | w ] without forming that matrix: for every row of the flattened x it
  stores the row's sum, the row itself, and the row times w, side by side; the reference forms the 512 × 1025 matrix
  and takes the product. On the extended reals the two agree entry by entry, for every input, finite or not: a sum of
  products with ones is the sum, and a sum of products with a column of the identity is one entry (x · 1 = x and
  x · 0 = 0 hold at the infinities too), so the precondition is not used by the value claim.

  The kernel's value is read off its frame run: one grid point leaves the result-row function of its 2048 rows
  (Proof/BlockValue.lean), the 64 blocks tile the output (Proof/ArrayValue.lean), and the reshapes before and after
  keep row-major positions (Proof/ResultEntry.lean). The reference's value is its run read one operation at a time
  (Proof/RefValue.lean). The three frames are the programs' runs with the result dropped; the ideal pass rewrote
  nothing, so there is nothing to preserve.
-/
import proofs.«112011_j48284022342007_1_alg».proof.Defs
import proofs.«112011_j48284022342007_1_alg».proof.Proof.Gen.Kernel
import proofs.«112011_j48284022342007_1_alg».proof.Proof.Gen.Kernel.Skeleton
import proofs.«112011_j48284022342007_1_alg».proof.Proof.Gen.Kernel.Launch
import proofs.«112011_j48284022342007_1_alg».proof.Proof.Gen.Kernel.Points
import proofs.«112011_j48284022342007_1_alg».proof.Proof.Gen.Kernel.Frame
import proofs.«112011_j48284022342007_1_alg».proof.Proof.Gen.KernelIdeal
import proofs.«112011_j48284022342007_1_alg».proof.Proof.Gen.KernelIdeal.Skeleton
import proofs.«112011_j48284022342007_1_alg».proof.Proof.Gen.KernelIdeal.Launch
import proofs.«112011_j48284022342007_1_alg».proof.Proof.Gen.KernelIdeal.Points
import proofs.«112011_j48284022342007_1_alg».proof.Proof.Gen.KernelIdeal.Frame
import proofs.«112011_j48284022342007_1_alg».proof.Proof.Gen.ReferenceIdeal
import proofs.«112011_j48284022342007_1_alg».proof.Proof.Gen.Pre_finite_inputs
import proofs.«112011_j48284022342007_1_alg».proof.Proof.Gen.ReferenceIdeal.Run
import proofs.«112011_j48284022342007_1_alg».proof.Proof.Gen.ReferenceIdeal.Read
import proofs.«112011_j48284022342007_1_alg».proof.Proof.ResultEntry
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the result function of its arguments, the reference's is its composed
    term of arguments that agree with them, and the two are one array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact Cert.ResultEntry.result_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
